-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x64 : Shape := ⟨3, ![4, 4096, 64]⟩
abbrev S_ : Shape := ⟨0, ![]⟩

class Facts : Prop where
  bcast_S_S4x4096x64 : S_.BroadcastsInDim S4x4096x64 (![] : Fin 0 → Fin S4x4096x64.rank)
  reducesTo_S4x4096x64_S_d0_1_2 : S4x4096x64.ReducesTo [0, 1, 2] S_
  h_S_ : 0 < S_.numel

variable [Facts]

def fn {F : FTy → Type} [FloatOps F] (main_arg0 : FVec F S4x4096x64 .f32) : IVec S_ 1 :=
  let main_v0 : FVec F S4x4096x64 .f32 := Host.absf main_arg0
  let main_cst : FVec F S_ .f32 := constant S_ .f32 0x7F800000#32
  let main_v1 : FVec F S4x4096x64 .f32 := broadcastInDim S4x4096x64 ![] bcast_S_S4x4096x64 main_cst
  let main_v2 : IVec S4x4096x64 1 := cmpf .olt main_v0 main_v1
  let main_c : IVec S_ 1 := constantI S_ 1 1#1
  let main_v3 : IVec S_ 1 := (fun x v => Host.reduce IntOp.andi x v reducesTo_S4x4096x64_S_d0_1_2 h_S_) main_v2 main_c
  main_v3
-- ==== Kernel.lean ====
abbrev S4x4096x64 : Shape := ⟨3, ![4, 4096, 64]⟩
abbrev S1x512x64 : Shape := ⟨3, ![1, 512, 64]⟩
abbrev S1x4096x64 : Shape := ⟨3, ![1, 4096, 64]⟩
abbrev S512x64 : Shape := ⟨2, ![512, 64]⟩
abbrev S4096x64 : Shape := ⟨2, ![4096, 64]⟩
abbrev S512x4096 : Shape := ⟨2, ![512, 4096]⟩
abbrev S512 : Shape := ⟨1, ![512]⟩
abbrev S512x1 : Shape := ⟨2, ![512, 1]⟩

abbrev nBuf : Space → Nat
  | .hbm => 2
  | .vmem => 6
  | .smem => 0
  | _ => 0

abbrev bufTy : (tb : Table) → Fin (tcTables nBuf tb) → BufTy
  | .hbm, ⟨0, _⟩ => ⟨S4x4096x64, .f32⟩
  | .hbm, ⟨1, _⟩ => ⟨S4x4096x64, .f32⟩
  | .local _ .vmem, ⟨0, _⟩ => ⟨S1x512x64, .f32⟩
  | .local _ .vmem, ⟨1, _⟩ => ⟨S1x512x64, .f32⟩
  | .local _ .vmem, ⟨2, _⟩ => ⟨S1x4096x64, .f32⟩
  | .local _ .vmem, ⟨3, _⟩ => ⟨S1x4096x64, .f32⟩
  | .local _ .vmem, ⟨4, _⟩ => ⟨S1x512x64, .f32⟩
  | .local _ .vmem, ⟨5, _⟩ => ⟨S1x512x64, .f32⟩
  | _, _ => ⟨S4x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  bitsLt_bf16_f32 : FTy.bits .bf16 < FTy.bits .f32
  reduces_S512x4096_S512 : S512x4096.Reduces [1] S512
  shapeCasts_S512_S512x1 : S512.ShapeCasts S512x1
  broadcasts_S512x1_S512x64 : S512x1.Broadcasts S512x64
  shapeCasts_S512x64_S1x512x64 : S512x64.ShapeCasts S1x512x64
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S4x4096x64.size a
  hwx0_0 : ∀ i : grid0.Coords, EltTy.bits .f32 = 32 ∨ (Rect.block (s := S4x4096x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S4x4096x64.size a
  hwx0_1 : ∀ i : grid0.Coords, EltTy.bits .f32 = 32 ∨ (Rect.block (s := S4x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S4x4096x64.size a
  hwx0_2 : ∀ i : grid0.Coords, EltTy.bits .f32 = 32 ∨ (Rect.block (s := S4x4096x64) S1x512x64.size (cc0_transform_2 i) (hinb0_2 i)).WholeWords (EltTy.packing .f32)

variable [Facts₀]

def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x64 : Shape := ⟨3, ![4, 4096, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x64, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4x4096x4096, .f32⟩
  | .hbm, ⟨6, _⟩ => ⟨S4x4096x4096, .f32⟩
  | .hbm, ⟨7, _⟩ => ⟨S4x4096x4096, .f32⟩
  | .hbm, ⟨8, _⟩ => ⟨S_, .f32⟩
  | .hbm, ⟨9, _⟩ => ⟨S4x4096, .f32⟩
  | .hbm, ⟨10, _⟩ => ⟨S_, .f32⟩
  | .hbm, ⟨11, _⟩ => ⟨S4x4096, .f32⟩
  | .hbm, ⟨12, _⟩ => ⟨S4x4096, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S4x4096x4096, .f32⟩
  | .hbm, ⟨21, _⟩ => ⟨S4x4096x4096, .f32⟩
  | .hbm, ⟨22, _⟩ => ⟨S4x4096x64, .f32⟩
  | _, _ => ⟨S4x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.LibSharedInputs.lean ====
/-
  A one-region pipeline program whose INPUT windows may read one and the same array.

  When two input windows are handed the same array, the array's buffer cannot be held whole by each of them: its
  ownership is dealt among them, each window holding a share of it, the shares adding up to the whole. How it is
  dealt is the caller's to say (`hsplit`: the buffers behind the arrays, each whole, yield the arrays at the
  windows' shares). Given that, a kernel body that keeps nothing between grid points beyond what the staging
  buffers hold — its invariant is the core's scoped buffers that are no staging buffer, at some contents — runs
  to the end from any memory with zero counters, and every window's array ends at what the write-backs of the
  proof data leave there (for an input window: its contents at the region's entry).
-/
import Idealize.ShloMosaic.Lib.Pipeline.Frame

noncomputable section

namespace Cert.SharedInputs

open Idealize.ShloMosaic Idealize.ShloMosaic.Pipeline Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} [∀ e, Nonempty (Val e)]
variable {Λ₀ : Idealize.SL.Sem.Labels} {P : Type} [Fintype P] [DecidableEq P]

local notation "𝕄" => MT nD τ sig Unit Val ℕ (UR sig nD τ) ℕ

/-- The run of a one-region program whose windows may share arrays, the shares dealt by `hsplit`: every weakly
    fair execution from a memory with zero counters terminates, and each window's array ends at the proof data's
    `arrAt … N`. The body's invariant is the scoped rest alone (`hΦ`). -/
theorem θ_run_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hΦ : ∀ c t, (dats p c).Φ t
      = (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g)
      (fun r => ∀ c : Dev nD, ∀ w, r.2.mem (((cfgs p).spec w).arr.view.loc (c.tc : Thread nD τ)) = (dats p c).arrAt w (cfgs p).N) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun _ _ => True)
    (hY := fun c s' => by
      iintro ⟨-, -, HSI⟩
      imodintro
      isplitr; · ipureintro; trivial
      iexact HSI)
    (hQ := fun s h c w => (h c).1 w)

end Cert.SharedInputs

end
-- ==== Proof.KernelFrame.lean ====
/-
  The attention kernel runs to the end, and what it leaves behind.

  The kernel is one pipelined region over a 4 × 8 grid. At grid point (b, i) the pipeline hands the body three
  staging buffers: the query block x[b, 512 i .. 512 i + 511, :], the whole key/value slab x[b, :, :] — both blocks
  of ONE argument array — and an output block. The body loads the two input buffers whole, computes, and stores the
  output buffer whole; it keeps nothing from one grid point to the next.

  Because two input windows read the same array, the array cannot be owned whole by each: the query window holds the
  left half of its ownership and the key/value window the right half (a reader needs only a share), and the launch
  deals the whole buffer into those two halves. With that, every weakly fair execution terminates, the argument array
  ends as it began, and the result array ends at the contents obtained by writing back, block by block, what the body
  stored at each grid point.
-/
import proofs.«410597_j40441412059534_3_alg».proof.Proof.Gen.Kernel.Launch
import proofs.«410597_j40441412059534_3_alg».proof.Proof.Gen.Kernel.Skeleton
import proofs.«410597_j40441412059534_3_alg».proof.Proof.Gen.Kernel.Points
import proofs.«410597_j40441412059534_3_alg».proof.Proof.LibSharedInputs
import Idealize.ShloMosaic.Lib.Pipeline.FrameBody
import Idealize.ShloMosaic.Lib.Ring
import Idealize.ShloMosaic.Lib.Tactic

set_option maxRecDepth 16384

noncomputable section

namespace Cert.Kernel.AttnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: as launched (the program is the region alone). -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The query window's staging buffer holds its block at every point, for any proof data over the entry contents
    whose body leaves the block in place. -/
theorem before_q_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The key/value window's staging buffer holds its slab at every point — refetched only when the batch changes;
    in between the block index has not moved and the body left the slab in place. -/
theorem before_kv_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## What the body leaves in the output buffer -/

/-- The whole query / output buffer, and the whole key/value buffer, as rectangles. -/
abbrev rq : Rect S1x512x64 := Rect.unit (s := S1x512x64) ![0, 0, 0] S1x512x64.size inb_S1x512x64_S1x512x64_0_0_0
abbrev rkv : Rect S1x4096x64 := Rect.unit (s := S1x4096x64) ![0, 0, 0] S1x4096x64.size inb_S1x4096x64_S1x4096x64_0_0_0

/-- The output buffer after the body, from the two input blocks: its one store, of the body's arithmetic. -/
def outOf (x0 : Vec F S1x512x64 .f32) (x1 : Vec F S1x4096x64 .f32) : Vec F S1x512x64 .f32 :=
  View.canon [⟨rq, k0_pay1 (View.ld x0 rq) (View.ld x1 rkv)⟩]

/-- The one store covers the buffer. -/
theorem cover_out (p0 : Vec F S1x512x64 .f32) (y : S1x512x64.Idx) :
    ∃ pc ∈ ([⟨rq, p0⟩] : List (View.Piece (Elt F) S1x512x64 .f32)), y ∈ pc.1.set :=
  View.cover_of_tiled [⟨rq, p0⟩] S1x512x64.size (by rfl) y

/-! ## The body's triple -/

set_option maxHeartbeats 1000000 in
/-- The body on whole staging memrefs, the inputs' at contents `x0`, `x1` and the output's at anything, runs to the
    continuation holding the inputs' as they were and the output's at `outOf x0 x1`. -/
theorem sound_kernel (c : Dev nD) (E : Set ℕ) (i : grid0.Coords)
    (arg2 : Memref sig .tc .vmem S1x512x64 .f32) (harg2 : arg2.IsWhole)
    (arg3 : Memref sig .tc .vmem S1x4096x64 .f32) (harg3 : arg3.IsWhole)
    (arg4 : Memref sig .tc .vmem S1x512x64 .f32) (harg4 : arg4.IsWhole)
    (x0 : Vec F S1x512x64 .f32) (x1 : Vec F S1x4096x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outOf x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- Per core: the arrays as the region finds them; after the body at point `t` each input buffer still at its block
    and the output buffer at `outOf` of the two blocks; nothing kept between points beyond the core's other scoped
    buffers; nothing owed; the argument array's ownership halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_out (c : Dev nD) (t : Fin cfg0.N) :
    (dats m 0 c).after 2 t = outOf (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).Φ t.succ = (dats m 0 c).Φ t.castSucc from rfl,
    show (dats m 0 c).owesAt () t.succ = (dats m 0 c).owesAt () t.castSucc from rfl,
    after_q, after_kv, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The launch: the argument array dealt between its two windows -/

theorem share_q (c : Dev nD) : (dats m 0 c).share 0 = fullShare.left := rfl
theorem share_kv (c : Dev nD) : (dats m 0 c).share 1 = fullShare.right := rfl
theorem share_out (c : Dev nD) : (dats m 0 c).share 2 = fullShare := rfl

/-- The two distinct buffers behind the three windows — the argument array and the result array, each whole — are
    the windows' arrays at their shares: the argument array's whole ownership splits into a left and a right half. -/
theorem hsplit (c : Dev nD) :
    (Pipeline.arrBufs spec0 c (V m c) : sProp 𝕄) ⊢ (dats m 0 c).arrays (fun w => (dats m 0 c).arrAt w 0) := by
  unfold Pipeline.arrBufs Pipeline.Dat.arrays
  rw [bigSep_W0, bigSep_eq_bigSepL_of_eq [main_arg0, main_v0] (by decide) (by decide)]
  simp only [bigSepL_cons_cons, bigSepL_singleton]
  rw [(arr_whole0 0).set_eq_univ, (arr_whole0 2).set_eq_univ, share_q, share_kv, share_out]
  show iprop((((c.tc : Thread nD τ).loc main_arg0) ↦{fullShare} V m c main_arg0)
      ∗ (((c.tc : Thread nD τ).loc main_v0) ↦{fullShare} V m c main_v0)) ⊢ _
  iintro ⟨Ha, Hv⟩
  icases (pointsTo_share (PosShare.mem_left_op_right fullShare)).1 $$ Ha with ⟨Hl, Hr⟩
  isplitl [Hl]; · iexact Hl
  isplitl [Hr]; · iexact Hr
  iexact Hv

/-! ## The run and the frame -/

set_option backward.isDefEq.respectTransparency.types false in
/-- From any memory with zero counters every weakly fair execution terminates, each window's array at what the
    write-backs of the proof data leave there. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Cert.SharedInputs.θ_run_shared cfgs (dats m) (0 : Fin 1) cellOf_inj winFacts₀0 block_pos0 arr_whole0 stage_whole0
    defs₀ Variants.none m ρ main (hbody := fun c => (body_obligation m c).loose) (howed := fun _ _ => rfl)
    (V := V m) (hmain := hmain m Variants.none) (hsplit := hsplit m) (hΦ := fun _ _ => rfl)

/-- The frame: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.Kernel.AttnFrame

end
-- ==== Proof.KernelIdealFrame.lean ====
/-
  The attention kernel runs to the end, and what it leaves behind.

  The kernel is one pipelined region over a 4 × 8 grid. At grid point (b, i) the pipeline hands the body three
  staging buffers: the query block x[b, 512 i .. 512 i + 511, :], the whole key/value slab x[b, :, :] — both blocks
  of ONE argument array — and an output block. The body loads the two input buffers whole, computes, and stores the
  output buffer whole; it keeps nothing from one grid point to the next.

  Because two input windows read the same array, the array cannot be owned whole by each: the query window holds the
  left half of its ownership and the key/value window the right half (a reader needs only a share), and the launch
  deals the whole buffer into those two halves. With that, every weakly fair execution terminates, the argument array
  ends as it began, and the result array ends at the contents obtained by writing back, block by block, what the body
  stored at each grid point.
-/
import proofs.«410597_j40441412059534_3_alg».proof.Proof.Gen.KernelIdeal.Launch
import proofs.«410597_j40441412059534_3_alg».proof.Proof.Gen.KernelIdeal.Skeleton
import proofs.«410597_j40441412059534_3_alg».proof.Proof.Gen.KernelIdeal.Points
import proofs.«410597_j40441412059534_3_alg».proof.Proof.LibSharedInputs
import Idealize.ShloMosaic.Lib.Pipeline.FrameBody
import Idealize.ShloMosaic.Lib.Ring
import Idealize.ShloMosaic.Lib.Tactic

set_option maxRecDepth 16384

noncomputable section

namespace Cert.KernelIdeal.AttnFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: as launched (the program is the region alone). -/
abbrev V (c : Dev nD) (b : Ref sig .tc) : Buf (Elt F) ((c : Thread nD τ).loc b) := m ((c : Thread nD τ).loc b)

theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The query window's staging buffer holds its block at every point, for any proof data over the entry contents
    whose body leaves the block in place. -/
theorem before_q_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The key/value window's staging buffer holds its slab at every point — refetched only when the batch changes;
    in between the block index has not moved and the body left the slab in place. -/
theorem before_kv_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-! ## What the body leaves in the output buffer -/

/-- The whole query / output buffer, and the whole key/value buffer, as rectangles. -/
abbrev rq : Rect S1x512x64 := Rect.unit (s := S1x512x64) ![0, 0, 0] S1x512x64.size inb_S1x512x64_S1x512x64_0_0_0
abbrev rkv : Rect S1x4096x64 := Rect.unit (s := S1x4096x64) ![0, 0, 0] S1x4096x64.size inb_S1x4096x64_S1x4096x64_0_0_0

/-- The output buffer after the body, from the two input blocks: its one store, of the body's arithmetic. -/
def outOf (x0 : Vec F S1x512x64 .f32) (x1 : Vec F S1x4096x64 .f32) : Vec F S1x512x64 .f32 :=
  View.canon [⟨rq, k0_pay1 (View.ld x0 rq) (View.ld x1 rkv)⟩]

/-- The one store covers the buffer. -/
theorem cover_out (p0 : Vec F S1x512x64 .f32) (y : S1x512x64.Idx) :
    ∃ pc ∈ ([⟨rq, p0⟩] : List (View.Piece (Elt F) S1x512x64 .f32)), y ∈ pc.1.set :=
  View.cover_of_tiled [⟨rq, p0⟩] S1x512x64.size (by rfl) y

/-! ## The body's triple -/

set_option maxHeartbeats 1000000 in
/-- The body on whole staging memrefs, the inputs' at contents `x0`, `x1` and the output's at anything, runs to the
    continuation holding the inputs' as they were and the output's at `outOf x0 x1`. -/
theorem sound_kernel (c : Dev nD) (E : Set ℕ) (i : grid0.Coords)
    (arg2 : Memref sig .tc .vmem S1x512x64 .f32) (harg2 : arg2.IsWhole)
    (arg3 : Memref sig .tc .vmem S1x4096x64 .f32) (harg3 : arg3.IsWhole)
    (arg4 : Memref sig .tc .vmem S1x512x64 .f32) (harg4 : arg4.IsWhole)
    (x0 : Vec F S1x512x64 .f32) (x1 : Vec F S1x4096x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (outOf x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The proof data -/

/-- Per core: the arrays as the region finds them; after the body at point `t` each input buffer still at its block
    and the output buffer at `outOf` of the two blocks; nothing kept between points beyond the core's other scoped
    buffers; nothing owed; the argument array's ownership halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outOf (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_out (c : Dev nD) (t : Fin cfg0.N) :
    (dats m 0 c).after 2 t = outOf (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input memrefs hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).Φ t.succ = (dats m 0 c).Φ t.castSucc from rfl,
    show (dats m 0 c).owesAt () t.succ = (dats m 0 c).owesAt () t.castSucc from rfl,
    after_q, after_kv, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) :
    BodyObligation (dats (F := F) m 0 c) (defs₀ (F := F)) Variants.none () Set.univ := fun t => by
  rw [bigSep_W0, bigSep_W0]
  exact sound_body m c t

/-! ## The launch: the argument array dealt between its two windows -/

theorem share_q (c : Dev nD) : (dats m 0 c).share 0 = fullShare.left := rfl
theorem share_kv (c : Dev nD) : (dats m 0 c).share 1 = fullShare.right := rfl
theorem share_out (c : Dev nD) : (dats m 0 c).share 2 = fullShare := rfl

/-- The two distinct buffers behind the three windows — the argument array and the result array, each whole — are
    the windows' arrays at their shares: the argument array's whole ownership splits into a left and a right half. -/
theorem hsplit (c : Dev nD) :
    (Pipeline.arrBufs spec0 c (V m c) : sProp 𝕄) ⊢ (dats m 0 c).arrays (fun w => (dats m 0 c).arrAt w 0) := by
  unfold Pipeline.arrBufs Pipeline.Dat.arrays
  rw [bigSep_W0, bigSep_eq_bigSepL_of_eq [main_arg0, main_v0] (by decide) (by decide)]
  simp only [bigSepL_cons_cons, bigSepL_singleton]
  rw [(arr_whole0 0).set_eq_univ, (arr_whole0 2).set_eq_univ, share_q, share_kv, share_out]
  show iprop((((c.tc : Thread nD τ).loc main_arg0) ↦{fullShare} V m c main_arg0)
      ∗ (((c.tc : Thread nD τ).loc main_v0) ↦{fullShare} V m c main_v0)) ⊢ _
  iintro ⟨Ha, Hv⟩
  icases (pointsTo_share (PosShare.mem_left_op_right fullShare)).1 $$ Ha with ⟨Hl, Hr⟩
  isplitl [Hl]; · iexact Hl
  isplitl [Hr]; · iexact Hr
  iexact Hv

/-! ## The run and the frame -/

set_option backward.isDefEq.respectTransparency.types false in
/-- From any memory with zero counters every weakly fair execution terminates, each window's array at what the
    write-backs of the proof data leave there. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Cert.SharedInputs.θ_run_shared cfgs (dats m) (0 : Fin 1) cellOf_inj winFacts₀0 block_pos0 arr_whole0 stage_whole0
    defs₀ Variants.none m ρ main (hbody := fun c => (body_obligation m c).loose) (howed := fun _ _ => rfl)
    (V := V m) (hmain := hmain m Variants.none) (hsplit := hsplit m) (hΦ := fun _ _ => rfl)

/-- The frame: the program runs to the end and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c 0).trans (((dats m 0 c).arrAt_in 0 rfl _).trans (A_eq m c 0)))) (run_main m ρ)

end Cert.KernelIdeal.AttnFrame

end
-- ==== Proof.LibSoftmaxReal.lean ====
/-
  Exponentially weighted means over a finite family of real scores, as an attention row computes them.

  Three facts, all over the real numbers:
  * the weighted mean  (∑ e^(s q - c) · v q) / (∑ e^(s q - c))  does not depend on the shift c;
  * dividing every weight by the total first, then summing, gives the same mean;
  * a running pair (total weight, weighted sum) kept relative to a shift μ is carried to a new shift μ'
    by the factor e^(μ - μ'), and extended by one more block of scores taken relative to μ'.
  Together they say that a blockwise pass with a moving shift ends at the same mean as the one-pass
  formula with any shift at all; which shift either side used never has to be identified.
-/
import Mathlib.Analysis.SpecialFunctions.Exp
import Mathlib.Data.EReal.Basic
import Mathlib.Algebra.BigOperators.Fin

noncomputable section

namespace Cert.AttnReal

open Finset

/-- The coercion into the extended reals of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A total weight of exponentials over a nonempty family is positive. -/
theorem sum_exp_pos {ι : Type*} [Fintype ι] [Nonempty ι] (s : ι → ℝ) : 0 < ∑ q, Real.exp (s q) :=
  Finset.sum_pos (fun q _ => Real.exp_pos _) Finset.univ_nonempty

/-- The exponentially weighted mean is invariant under shifting every score by the same amount. -/
theorem mean_shift {ι : Type*} [Fintype ι] (s v : ι → ℝ) (c : ℝ) :
    (∑ q, Real.exp (s q - c) * v q) / (∑ q, Real.exp (s q - c))
      = (∑ q, Real.exp (s q) * v q) / (∑ q, Real.exp (s q)) := by
  have h : ∀ q, Real.exp (s q - c) = Real.exp (-c) * Real.exp (s q) := fun q => by
    rw [← Real.exp_add]; congr 1; ring
  simp only [h, mul_assoc, ← Finset.mul_sum]
  exact mul_div_mul_left _ _ (Real.exp_pos _).ne'

/-- Normalising each weight by the total before the weighted sum is the weighted sum over the total. -/
theorem sum_div_mul {ι : Type*} [Fintype ι] (e v : ι → ℝ) (L : ℝ) :
    ∑ q, e q / L * v q = (∑ q, e q * v q) / L := by
  rw [div_eq_mul_inv, Finset.sum_mul]; exact Finset.sum_congr rfl fun q _ => by rw [div_eq_mul_inv]; ring

/-- One block more of a running weighted sum: the sum over the first N scores relative to the shift μ, rescaled to
    the shift μ', plus the next B scores relative to μ', is the sum over the first N + B scores relative to μ'. -/
theorem prefix_step (S V : ℕ → ℝ) (N B : ℕ) (μ μ' : ℝ) :
    Real.exp (μ - μ') * (∑ q ∈ range N, Real.exp (S q - μ) * V q)
        + ∑ j : Fin B, Real.exp (S (N + j.val) - μ') * V (N + j.val)
      = ∑ q ∈ range (N + B), Real.exp (S q - μ') * V q := by
  rw [Finset.sum_range_add, Finset.mul_sum, Fin.sum_univ_eq_sum_range (fun j => Real.exp (S (N + j) - μ') * V (N + j))]
  congr 1
  refine Finset.sum_congr rfl fun q _ => ?_
  rw [← mul_assoc, ← Real.exp_add]; congr 2; ring

/-- The same for the total weight alone. -/
theorem prefix_step_one (S : ℕ → ℝ) (N B : ℕ) (μ μ' : ℝ) :
    Real.exp (μ - μ') * (∑ q ∈ range N, Real.exp (S q - μ))
        + ∑ j : Fin B, Real.exp (S (N + j.val) - μ')
      = ∑ q ∈ range (N + B), Real.exp (S q - μ') := by
  have := prefix_step S (fun _ => 1) N B μ μ'
  simpa using this

end Cert.AttnReal

end
-- ==== Proof.Spec.lean ====
/-
  What one attention row computes, over the real numbers.

  For a batch `b`, a query row `q` and a feature `d`: every key row `s` of the same batch gets the score
  (x[b,q,·] · x[b,s,·]) / 8 — the inner product over the 64 features, scaled by 1/√64 —, and the output is the
  mean of the value rows x[b,s,d] weighted by e^score. Keys, queries and values are one and the same array.
-/
import proofs.«410597_j40441412059534_3_alg».proof.Proof.LibSoftmaxReal

noncomputable section

namespace Cert.Attn

/-- The score of key row `s` against query row `q` in batch `b`. -/
def score (x : Fin 4 → Fin 4096 → Fin 64 → ℝ) (b : Fin 4) (q s : Fin 4096) : ℝ :=
  (∑ e : Fin 64, x b q e * x b s e) * (1 / 8)

/-- The exponentially weighted mean of the value rows. -/
def attn (x : Fin 4 → Fin 4096 → Fin 64 → ℝ) (b : Fin 4) (q : Fin 4096) (d : Fin 64) : ℝ :=
  (∑ s : Fin 4096, Real.exp (score x b q s) * x b s d) / (∑ s : Fin 4096, Real.exp (score x b q s))

end Cert.Attn

end
-- ==== Proof.KernelPayload.lean ====
/-
  The kernel body's one stored value, read at an index.

  The body scales the query block by one eighth, multiplies it against the key block along the feature axis
  (the scores), exponentiates every score (the weights), sums the weights along the key axis (the row totals),
  multiplies the weights against the same block along the key axis (the weighted sums of the value rows), and
  divides each weighted sum by its row's total. Over the extended reals the format changes are the identity,
  a matrix product into a zero accumulator is the plain sum of products, and the exponential of a real is the
  real exponential; so when both blocks hold real numbers the stored value at (0, p, d) is the real number

      (∑ s, e^(⟨q_p, k_s⟩ / 8) · k_s d) / (∑ s, e^(⟨q_p, k_s⟩ / 8)),

  the quotient being an honest real division because a sum of exponentials over a nonempty family is positive.

  The module goes in the order of the body: the scale constant; the two layout forms with a trailing unit axis;
  each matrix product read at an index as a sum over its one contracted coordinate; the row sum; the stages as
  named vectors, of which the stored value is the composite by unfolding; each stage at an index; the quotient.
-/
import proofs.«410597_j40441412059534_3_alg».proof.Proof.Gen.KernelIdeal.Skeleton
import proofs.«410597_j40441412059534_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnValue

open Idealize.ShloMosaic Idealize.ShloMosaic.ValueIdx Cert.KernelIdeal Cert.KernelIdeal.Gen

/-! ## The scale constant -/

/-- The binary32 pattern `0x3E000000` denotes one eighth. -/
theorem ofBits_eighth : Ideal.ofBits .f32 0x3E000000#32 = ((1 / 8 : ℝ) : EReal) := by
  simp [Ideal.ofBits, Ideal.ieee, -EReal.coe_mul]; norm_num

/-! ## The two keepdims layout forms -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first matrix product: queries against keys, contracting the feature axis of both -/

/-- The left operand's index at output `(p, s)` and contraction index `q`: row `p` … -/
theorem lhs_qk_0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
/-- … and column `q`. -/
theorem lhs_qk_1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
/-- The right operand's index there: row `s` … -/
theorem rhs_qk_0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
/-- … and column `q`. -/
theorem rhs_qk_1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-- The product into a zero accumulator, read at `(p, s)`: the sum over the feature `e` of the left operand at
    `(p, e)` times the right operand at `(s, e)`. -/
theorem qk_apply (A : FVec Ideal S512x64 .bf16) (B : FVec Ideal S4096x64 .bf16) (p : Fin 512) (s : Fin 4096) :
    matmul dot_S512x64_S4096x64_S512x4096_1_1_0_0_n_n none A B (constant (F := Ideal) S512x4096 .f32 0x00000000#32) (ix2 p s)
      = ∑ e : Fin 64, A (ix2 p e) * B (ix2 s e) := by
  simp only [matmul]
  rw [Ideal.matmul_constant_zero_apply, ← Equiv.sum_comp (ValueIdx.contrEquiv1 dot_S512x64_S4096x64_S512x4096_1_1_0_0_n_n 64 rfl rfl).symm]
  refine Finset.sum_congr rfl fun k _ => ?_
  have hk := ValueIdx.contrEquiv1_symm_val dot_S512x64_S4096x64_S512x4096_1_1_0_0_n_n 64 rfl rfl k
  have el : dot_S512x64_S4096x64_S512x4096_1_1_0_0_n_n.lhsIdx (ix2 p s) ((ValueIdx.contrEquiv1 dot_S512x64_S4096x64_S512x4096_1_1_0_0_n_n 64 rfl rfl).symm k) = ix2 p k := funext fun a => Fin.ext (by
    match a with
    | ⟨0, _⟩ => exact lhs_qk_0 _ _
    | ⟨1, _⟩ => exact (lhs_qk_1 _ _).trans hk)
  have er : dot_S512x64_S4096x64_S512x4096_1_1_0_0_n_n.rhsIdx (ix2 p s) ((ValueIdx.contrEquiv1 dot_S512x64_S4096x64_S512x4096_1_1_0_0_n_n 64 rfl rfl).symm k) = ix2 s k := funext fun a => Fin.ext (by
    match a with
    | ⟨0, _⟩ => exact rhs_qk_0 _ _
    | ⟨1, _⟩ => exact (rhs_qk_1 _ _).trans hk)
  rw [el, er]

/-! ## The second matrix product: weights against values, contracting the key position -/

/-- The left operand's index at output `(p, d)` and contraction index `q`: row `p` … -/
theorem lhs_pv_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
/-- … and column `q`. -/
theorem lhs_pv_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
/-- The right operand's index there: row `q` … -/
theorem rhs_pv_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
/-- … and column `d`. -/
theorem rhs_pv_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- The product into a zero accumulator, read at `(p, d)`: the sum over the key position `s` of the left operand at
    `(p, s)` times the right operand at `(s, d)`. -/
theorem pv_apply (A : FVec Ideal S512x4096 .bf16) (B : FVec Ideal S4096x64 .bf16) (p : Fin 512) (d : Fin 64) :
    matmul dot_S512x4096_S4096x64_S512x64_1_0_0_1_n_n none A B (constant (F := Ideal) S512x64 .f32 0x00000000#32) (ix2 p d)
      = ∑ s : Fin 4096, A (ix2 p s) * B (ix2 s d) := by
  simp only [matmul]
  rw [Ideal.matmul_constant_zero_apply, ← Equiv.sum_comp (ValueIdx.contrEquiv1 dot_S512x4096_S4096x64_S512x64_1_0_0_1_n_n 4096 rfl rfl).symm]
  refine Finset.sum_congr rfl fun k _ => ?_
  have hk := ValueIdx.contrEquiv1_symm_val dot_S512x4096_S4096x64_S512x64_1_0_0_1_n_n 4096 rfl rfl k
  have el : dot_S512x4096_S4096x64_S512x64_1_0_0_1_n_n.lhsIdx (ix2 p d) ((ValueIdx.contrEquiv1 dot_S512x4096_S4096x64_S512x64_1_0_0_1_n_n 4096 rfl rfl).symm k) = ix2 p k := funext fun a => Fin.ext (by
    match a with
    | ⟨0, _⟩ => exact lhs_pv_0 _ _
    | ⟨1, _⟩ => exact (lhs_pv_1 _ _).trans hk)
  have er : dot_S512x4096_S4096x64_S512x64_1_0_0_1_n_n.rhsIdx (ix2 p d) ((ValueIdx.contrEquiv1 dot_S512x4096_S4096x64_S512x64_1_0_0_1_n_n 4096 rfl rfl).symm k) = ix2 k d := funext fun a => Fin.ext (by
    match a with
    | ⟨0, _⟩ => exact (rhs_pv_0 _ _).trans hk
    | ⟨1, _⟩ => exact rhs_pv_1 _ _)
  rw [el, er]

/-! ## The row total -/

/-- The sum along the key axis, read at row `p`: the sum over `s` of the source at `(p, s)`. -/
theorem rowsum_apply (src : FVec Ideal S512x4096 .f32) (p : Fin 512) :
    multiReduction (F := Ideal) .add [1] S512 src 0x00000000#32 reduces_S512x4096_S512 (.inl rfl) rfl (ix1 p)
      = ∑ s : Fin 4096, src (ix2 p s) := by
  refine (Ideal.multiReduction_add_single src 0x00000000#32 reduces_S512x4096_S512 (.inl rfl) rfl (ix1 p)).trans ?_
  refine Finset.sum_congr rfl fun s _ => ?_
  exact congrArg src (funext fun a => Fin.ext (by match a with | ⟨0, _⟩ => rfl | ⟨1, _⟩ => rfl))

/-! ## The stages of the kernel body -/

/-- The query block as a matrix, scaled by the constant and narrowed. -/
def qs (xq : Vec Ideal S1x512x64 .f32) : FVec Ideal S512x64 .bf16 :=
  truncf .bf16 (mulf (shapeCast S512x64 xq shapeCasts_S1x512x64_S512x64)
    (broadcast S512x64 (Scalar.ofBits (F := Ideal) .f32 0x3E000000#32))) bitsLt_bf16_f32

/-- The key/value block as a matrix, narrowed. -/
def kv (xkv : Vec Ideal S1x4096x64 .f32) : FVec Ideal S4096x64 .bf16 :=
  truncf .bf16 (shapeCast S4096x64 xkv shapeCasts_S1x4096x64_S4096x64) bitsLt_bf16_f32

/-- The scores: scaled queries against keys. -/
def logits (xq : Vec Ideal S1x512x64 .f32) (xkv : Vec Ideal S1x4096x64 .f32) : FVec Ideal S512x4096 .f32 :=
  matmul dot_S512x64_S4096x64_S512x4096_1_1_0_0_n_n none (qs xq) (kv xkv) (constant (F := Ideal) S512x4096 .f32 0x00000000#32)

/-- The weights: the exponential of every score. -/
def wts (xq : Vec Ideal S1x512x64 .f32) (xkv : Vec Ideal S1x4096x64 .f32) : FVec Ideal S512x4096 .f32 :=
  exp (logits xq xkv)

/-- The total weight of each row. -/
def tot (xq : Vec Ideal S1x512x64 .f32) (xkv : Vec Ideal S1x4096x64 .f32) : FVec Ideal S512 .f32 :=
  multiReduction (F := Ideal) .add [1] S512 (wts xq xkv) 0x00000000#32 reduces_S512x4096_S512 (.inl rfl) rfl

/-- The weighted sums of the value rows. -/
def wsum (xq : Vec Ideal S1x512x64 .f32) (xkv : Vec Ideal S1x4096x64 .f32) : FVec Ideal S512x64 .f32 :=
  matmul dot_S512x4096_S4096x64_S512x64_1_0_0_1_n_n none (truncf .bf16 (wts xq xkv) bitsLt_bf16_f32) (kv xkv) (constant (F := Ideal) S512x64 .f32 0x00000000#32)

/-- The stored value is the weighted sums over the row totals, with the leading unit axis put back. -/
theorem pay_eq (xq : Vec Ideal S1x512x64 .f32) (xkv : Vec Ideal S1x4096x64 .f32) :
    k0_pay1 (F := Ideal) xq xkv
      = shapeCast S1x512x64 (divf (wsum xq xkv)
          (broadcastTo S512x64 (shapeCast S512x1 (tot xq xkv) shapeCasts_S512_S512x1) broadcasts_S512x1_S512x64))
          shapeCasts_S512x64_S1x512x64 := rfl

/-! ## The stages read at an index, when both blocks hold real numbers -/

/-- A scaled query entry is the real query entry times one eighth. -/
theorem qs_apply (xq : Vec Ideal S1x512x64 .f32) (rq : Fin 512 → Fin 64 → ℝ)
    (hq : ∀ p e, xq (ix3 0 p e) = (rq p e : EReal)) (p : Fin 512) (e : Fin 64) :
    qs xq (ix2 p e) = ((rq p e * (1 / 8) : ℝ) : EReal) := by
  unfold qs
  rw [truncf_apply, mulf_apply, broadcast_apply, shapeCast_1ab_ab_apply, hq]
  show (rq p e : EReal) * Ideal.ofBits .f32 0x3E000000#32 = _
  rw [ofBits_eighth, ← EReal.coe_mul]

/-- A key/value entry is the real entry. -/
theorem kv_apply (xkv : Vec Ideal S1x4096x64 .f32) (rk : Fin 4096 → Fin 64 → ℝ)
    (hk : ∀ s e, xkv (ix3 0 s e) = (rk s e : EReal)) (s : Fin 4096) (e : Fin 64) :
    kv xkv (ix2 s e) = (rk s e : EReal) := by
  unfold kv
  rw [truncf_apply, shapeCast_1ab_ab_apply, hk]

/-- A score is the real inner product of the query row and the key row, times one eighth. -/
theorem logits_apply (xq : Vec Ideal S1x512x64 .f32) (xkv : Vec Ideal S1x4096x64 .f32)
    (rq : Fin 512 → Fin 64 → ℝ) (rk : Fin 4096 → Fin 64 → ℝ)
    (hq : ∀ p e, xq (ix3 0 p e) = (rq p e : EReal)) (hk : ∀ s e, xkv (ix3 0 s e) = (rk s e : EReal)) (p : Fin 512) (s : Fin 4096) :
    logits xq xkv (ix2 p s) = (((∑ e : Fin 64, rq p e * rk s e) * (1 / 8) : ℝ) : EReal) := by
  unfold logits
  refine (qk_apply _ _ p s).trans ?_
  have h : ∀ e : Fin 64, qs xq (ix2 p e) * kv xkv (ix2 s e) = ((rq p e * (1 / 8) * rk s e : ℝ) : EReal) := fun e => by
    rw [qs_apply xq rq hq, kv_apply xkv rk hk, ← EReal.coe_mul]
  simp only [h]
  refine (Cert.AttnReal.coe_sum Finset.univ fun e : Fin 64 => rq p e * (1 / 8) * rk s e).symm.trans ?_
  congr 1
  rw [Finset.sum_mul]
  exact Finset.sum_congr rfl fun e _ => by ring

/-- A weight is the real exponential of the score. -/
theorem wts_apply (xq : Vec Ideal S1x512x64 .f32) (xkv : Vec Ideal S1x4096x64 .f32)
    (rq : Fin 512 → Fin 64 → ℝ) (rk : Fin 4096 → Fin 64 → ℝ)
    (hq : ∀ p e, xq (ix3 0 p e) = (rq p e : EReal)) (hk : ∀ s e, xkv (ix3 0 s e) = (rk s e : EReal)) (p : Fin 512) (s : Fin 4096) :
    wts xq xkv (ix2 p s) = ((Real.exp ((∑ e : Fin 64, rq p e * rk s e) * (1 / 8)) : ℝ) : EReal) := by
  unfold wts
  show FloatOps.exp (logits xq xkv (ix2 p s)) = _
  rw [logits_apply xq xkv rq rk hq hk]
  rfl

/-- A row's total weight is the real sum of its weights. -/
theorem tot_apply (xq : Vec Ideal S1x512x64 .f32) (xkv : Vec Ideal S1x4096x64 .f32)
    (rq : Fin 512 → Fin 64 → ℝ) (rk : Fin 4096 → Fin 64 → ℝ)
    (hq : ∀ p e, xq (ix3 0 p e) = (rq p e : EReal)) (hk : ∀ s e, xkv (ix3 0 s e) = (rk s e : EReal)) (p : Fin 512) :
    tot xq xkv (ix1 p) = ((∑ s : Fin 4096, Real.exp ((∑ e : Fin 64, rq p e * rk s e) * (1 / 8)) : ℝ) : EReal) := by
  unfold tot
  refine (rowsum_apply _ p).trans ?_
  simp only [wts_apply xq xkv rq rk hq hk]
  exact (Cert.AttnReal.coe_sum Finset.univ fun s : Fin 4096 => Real.exp ((∑ e : Fin 64, rq p e * rk s e) * (1 / 8))).symm

/-- A weighted sum is the real sum of the weights times the value entries. -/
theorem wsum_apply (xq : Vec Ideal S1x512x64 .f32) (xkv : Vec Ideal S1x4096x64 .f32)
    (rq : Fin 512 → Fin 64 → ℝ) (rk : Fin 4096 → Fin 64 → ℝ)
    (hq : ∀ p e, xq (ix3 0 p e) = (rq p e : EReal)) (hk : ∀ s e, xkv (ix3 0 s e) = (rk s e : EReal)) (p : Fin 512) (d : Fin 64) :
    wsum xq xkv (ix2 p d) = ((∑ s : Fin 4096, Real.exp ((∑ e : Fin 64, rq p e * rk s e) * (1 / 8)) * rk s d : ℝ) : EReal) := by
  unfold wsum
  refine (pv_apply _ _ p d).trans ?_
  have h : ∀ s : Fin 4096, (truncf .bf16 (wts xq xkv) bitsLt_bf16_f32 : FVec Ideal S512x4096 .bf16) (ix2 p s) * kv xkv (ix2 s d)
      = ((Real.exp ((∑ e : Fin 64, rq p e * rk s e) * (1 / 8)) * rk s d : ℝ) : EReal) := fun s => by
    rw [truncf_apply, wts_apply xq xkv rq rk hq hk, kv_apply xkv rk hk, ← EReal.coe_mul]
  simp only [h]
  exact (Cert.AttnReal.coe_sum Finset.univ fun s : Fin 4096 => Real.exp ((∑ e : Fin 64, rq p e * rk s e) * (1 / 8)) * rk s d).symm

/-! ## The stored value at an index -/

/-- The stored value at `(0, p, d)`, when both blocks hold real numbers: the weighted sum of the value entries over
    the total weight, the weights being the exponentials of the scaled inner products. -/
theorem pay_apply (xq : Vec Ideal S1x512x64 .f32) (xkv : Vec Ideal S1x4096x64 .f32)
    (rq : Fin 512 → Fin 64 → ℝ) (rk : Fin 4096 → Fin 64 → ℝ)
    (hq : ∀ p e, xq (ix3 0 p e) = (rq p e : EReal)) (hk : ∀ s e, xkv (ix3 0 s e) = (rk s e : EReal))
    (p : Fin 512) (d : Fin 64) :
    k0_pay1 (F := Ideal) xq xkv (ix3 0 p d)
      = (((∑ s : Fin 4096, Real.exp ((∑ e : Fin 64, rq p e * rk s e) * (1 / 8)) * rk s d)
          / (∑ s : Fin 4096, Real.exp ((∑ e : Fin 64, rq p e * rk s e) * (1 / 8))) : ℝ) : EReal) := by
  have hpos : (∑ s : Fin 4096, Real.exp ((∑ e : Fin 64, rq p e * rk s e) * (1 / 8))) ≠ 0 :=
    (Cert.AttnReal.sum_exp_pos fun s : Fin 4096 => (∑ e : Fin 64, rq p e * rk s e) * (1 / 8)).ne'
  rw [pay_eq, shapeCast_ab_1ab_apply, divf_apply, broadcastTo_a1_ab_apply, shapeCast_a_a1_apply,
    wsum_apply xq xkv rq rk hq hk, tot_apply xq xkv rq rk hq hk, Ideal.div_coe hpos, ← EReal.coe_mul]
  congr 1
  exact mul_one_div _ _

end Cert.KernelIdeal.AttnValue

end
-- ==== Proof.KernelValue.lean ====
/-
  The result array after the kernel's run, as one function of the argument array.

  At grid point (b, i) the body reads the query block — rows 512 i .. 512 i + 511 of batch b — and the key/value
  slab — all 4096 rows of batch b — and stores, at row p and feature d of the output block, the mean of the value
  rows weighted by e^score against query row 512 i + p. The output block is written back to rows 512 i .. 512 i + 511
  of batch b of the result array; the 32 grid points' blocks tile that array, so it ends holding, at every index
  (b, q, d), the attention output of the specification.
-/
import proofs.«410597_j40441412059534_3_alg».proof.Proof.KernelIdealFrame
import proofs.«410597_j40441412059534_3_alg».proof.Proof.KernelPayload
import Idealize.ShloMosaic.Lib.Pipeline.Value

set_option maxRecDepth 16384

noncomputable section

namespace Cert.KernelIdeal.AttnRun

open Cert.KernelIdeal Cert.KernelIdeal.Gen Cert.KernelIdeal.AttnFrame Cert.KernelIdeal.AttnValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array the specification prescribes for real input `xr`. -/
def G (xr : Fin 4 → Fin 4096 → Fin 64 → ℝ) : S4x4096x64.Idx → EReal :=
  fun i => ((Cert.Attn.attn xr ⟨(i 0).val, (i 0).isLt⟩ ⟨(i 1).val, (i 1).isLt⟩ ⟨(i 2).val, (i 2).isLt⟩ : ℝ) : EReal)

theorem hz3 : (![0, 0, 0] : Fin 3 → Nat) = fun _ => 0 := funext fun a => by fin_cases a <;> rfl

/-- The printed index maps over the grid: the query window moves with the output window, the key/value window
    follows its batch only, and the output's block indices range over 4 batches and 8 row blocks. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) < 4 ∧ win0_2.index t (1 : Fin 3) < 8 ∧ win0_2.index t (2 : Fin 3) = 0 :=
  (by decide +kernel : ∀ t : Fin grid0.N, _)

/-- Every (batch, row block) is some grid point's. -/
theorem idx_onto : ∀ (q0 : Fin 4) (q1 : Fin 8), ∃ t : Fin cfg0.N, win0_2.index t = ![q0.val, q1.val, 0] :=
  (by decide +kernel : ∀ (q0 : Fin 4) (q1 : Fin 8), ∃ t : Fin grid0.N, win0_2.index t = ![q0.val, q1.val, 0])

section
variable (xr : Fin 4 → Fin 4096 → Fin 64 → ℝ) (c : Dev nD)
  (hx : ∀ b q e, V m c main_arg0 (ix3 b q e) = (xr b q e : EReal))
include hx

/-- The query block at a grid point holds rows 512 i + p of batch b. -/
theorem qblk_apply (t : Fin cfg0.N) (p : Fin 512) (e : Fin 64) :
    iblk m c 0 t (ix3 0 p e)
      = (xr ⟨win0_2.index t (0 : Fin 3), (idx_facts t).2.2.2.2.2.2.1⟩
          ⟨win0_2.index t (1 : Fin 3) * 512 + p.val, by have := (idx_facts t).2.2.2.2.2.2.2.1; omega⟩ e : EReal) := by
  obtain ⟨e0, e1, e2, -⟩ := idx_facts t
  rw [← hx]
  show V m c main_arg0 (((cfg0.win 0).blk t).view.emb (ix3 0 p e)) = _
  refine congrArg (V m c main_arg0) (funext fun a => Fin.ext ?_)
  match a with
  | ⟨0, _⟩ => show win0_0.index t (0 : Fin 3) * 1 + 1 * 0 = win0_2.index t (0 : Fin 3); omega
  | ⟨1, _⟩ => show win0_0.index t (1 : Fin 3) * 512 + 1 * p.val = win0_2.index t (1 : Fin 3) * 512 + p.val; omega
  | ⟨2, _⟩ => show win0_0.index t (2 : Fin 3) * 64 + 1 * e.val = e.val; omega

/-- The key/value slab at a grid point holds all rows of batch b. -/
theorem kvblk_apply (t : Fin cfg0.N) (s : Fin 4096) (e : Fin 64) :
    iblk m c 1 t (ix3 0 s e) = (xr ⟨win0_2.index t (0 : Fin 3), (idx_facts t).2.2.2.2.2.2.1⟩ s e : EReal) := by
  obtain ⟨-, -, -, e3, e4, e5, -⟩ := idx_facts t
  rw [← hx]
  show V m c main_arg0 (((cfg0.win 1).blk t).view.emb (ix3 0 s e)) = _
  refine congrArg (V m c main_arg0) (funext fun a => Fin.ext ?_)
  match a with
  | ⟨0, _⟩ => show win0_1.index t (0 : Fin 3) * 1 + 1 * 0 = win0_2.index t (0 : Fin 3); omega
  | ⟨1, _⟩ => show win0_1.index t (1 : Fin 3) * 4096 + 1 * s.val = s.val; omega
  | ⟨2, _⟩ => show win0_1.index t (2 : Fin 3) * 64 + 1 * e.val = e.val; omega

/-- What a grid point writes back is its block of `G`. -/
theorem flushed_eq (t : Fin cfg0.N) :
    (dats m 0 c).flushed 2 t = ((cfg0.win 2).blk t).view.read (Elt Ideal) (G xr) := by
  show (cfg0.win 2).cut (grid0.coords t) ((dats m 0 c).after 2 t) = _
  rw [after_out]
  unfold outOf
  rw [View.canon_unit_zero hz3]
  simp only [View.ld_unit_zero (S := S1x512x64) hz3, View.ld_unit_zero (S := S1x4096x64) hz3]
  funext j
  obtain ⟨a, p, d, rfl⟩ : ∃ (a : Fin 1) (p : Fin 512) (d : Fin 64), j = ix3 a p d := ⟨j 0, j 1, j 2, eq_ix3 j⟩
  obtain rfl : a = 0 := Subsingleton.elim _ _
  refine (pay_apply (iblk m c 0 t) (iblk m c 1 t)
    (fun p e => xr ⟨win0_2.index t (0 : Fin 3), (idx_facts t).2.2.2.2.2.2.1⟩
      ⟨win0_2.index t (1 : Fin 3) * 512 + p.val, by have := (idx_facts t).2.2.2.2.2.2.2.1; omega⟩ e)
    (fun s e => xr ⟨win0_2.index t (0 : Fin 3), (idx_facts t).2.2.2.2.2.2.1⟩ s e)
    (fun p e => qblk_apply m xr c hx t p e) (fun s e => kvblk_apply m xr c hx t s e) p d).trans ?_
  show _ = G xr (((cfg0.win 2).blk t).view.emb (ix3 0 p d))
  unfold G Cert.Attn.attn Cert.Attn.score
  have h8 := (idx_facts t).2.2.2.2.2.2.2.2
  have i0 : ((((cfg0.win 2).blk t).view.emb (ix3 0 p d)) 0).val = win0_2.index t (0 : Fin 3) := by
    show win0_2.index t (0 : Fin 3) * 1 + 1 * 0 = _; omega
  have i1 : ((((cfg0.win 2).blk t).view.emb (ix3 0 p d)) 1).val = win0_2.index t (1 : Fin 3) * 512 + p.val := by
    show win0_2.index t (1 : Fin 3) * 512 + 1 * p.val = _; omega
  have i2 : ((((cfg0.win 2).blk t).view.emb (ix3 0 p d)) 2).val = d.val := by
    show win0_2.index t (2 : Fin 3) * 64 + 1 * d.val = _; omega
  simp only [i0, i1, i2]

end

/-- An index of the result array is in a grid point's block iff each coordinate is in the block's range. -/
theorem mem_blk (t : Fin cfg0.N) (i : S4x4096x64.Idx) :
    i ∈ ((cfg0.win 2).blk t).view.set ↔ ∀ a : Fin 3, win0_2.index t a * S1x512x64.size a ≤ (i a).val
      ∧ (i a).val < win0_2.index t a * S1x512x64.size a + S1x512x64.size a := by
  show i ∈ ((View.whole main_v0).slice (win0_2.rect t)).set ↔ _
  rw [View.set_slice_whole, Rect.mem_set_unit]
  exact Iff.rfl

/-- The blocks tile the result array: the block that holds row q of batch b is the one of grid point (b, q / 512). -/
theorem cover (i : S4x4096x64.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hi2 : (i 2).val < 64 := (i 2).isLt
  obtain ⟨t, ht⟩ := idx_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 64 ≤ (i 2).val ∧ (i 2).val < win0_2.index t (2 : Fin 3) * 64 + 64; omega

/-- The result array after the run is the specification's. -/
theorem final (xr : Fin 4 → Fin 4096 → Fin 64 → ℝ) (c : Dev nD)
    (hx : ∀ b q e, V m c main_arg0 (ix3 b q e) = (xr b q e : EReal)) :
    (dats m 0 c).arrAt 2 cfg0.N = G xr :=
  (dats m 0 c).arrAt_eq_of_cover 2 (G xr) (fun t _ => flushed_eq m xr c hx t) cover

/-- The run, read: for real input the result array ends at the specification's function of it, the argument array
    unchanged. -/
theorem run (xr : Dev nD → Fin 4 → Fin 4096 → Fin 64 → ℝ)
    (hx : ∀ (c : Dev nD) (b : Fin 4) (q : Fin 4096) (e : Fin 64),
      m ((c.tc : Thread nD τ).loc main_arg0) (ix3 b q e) = (xr c b q e : EReal)) :
    θ_run defs (onTc (τ := τ) (main (F := Ideal))) ⟨m, fun _ => 0, ρ⟩ fun r => ∀ c : Dev nD,
      r.2.mem ((c.tc : Thread nD τ).loc main_v0) = G (xr c)
      ∧ r.2.mem ((c.tc : Thread nD τ).loc main_arg0) = m ((c.tc : Thread nD τ).loc main_arg0) :=
  (θ_run defs _ _).mono (fun r h c => ⟨(h c 2).trans (final m (xr c) c (hx c)),
      (h c 0).trans (((dats m 0 c).arrAt_in 0 rfl _).trans (A_eq m c 0))⟩)
    (run_main m ρ)

end Cert.KernelIdeal.AttnRun

end
-- ==== Proof.RefValue.lean ====
/-
  The reference's result, read index by index.

  With every input entry a real number, each stage of the reference is a real number too, and the last one is the
  exponentially weighted mean of the value rows:
  * the scale 1 / √64 is 1/8, so a logit is the score (x[b,q,·] · x[b,k,·]) / 8;
  * the row maximum, taken from −∞ over 4096 real scores, is some real number μ — which one never matters;
  * the weights are e^(score − μ) over their total Z > 0, and the output is ∑ₖ (e^(scoreₖ − μ) / Z) · x[b,k,d];
  * normalising first equals dividing last, and the mean does not depend on the shift μ.
-/
import proofs.«410597_j40441412059534_3_alg».proof.Proof.Gen.ReferenceIdeal.Run
import proofs.«410597_j40441412059534_3_alg».proof.Proof.Gen.ReferenceIdeal.Read
import proofs.«410597_j40441412059534_3_alg».proof.Proof.Spec

noncomputable section

namespace Cert.ReferenceIdeal.AttnValue

open Idealize.ShloMosaic Idealize.ShloMosaic.ValueIdx Cert.ReferenceIdeal Cert.ReferenceIdeal.Read

/-! ## The constants and the scale -/
/-- The pattern 0x42800000 denotes the real number 64. -/
theorem ofBits_64 : Ideal.ofBits .f32 0x42800000#32 = ((64 : ℝ) : EReal) := by
  simp [Ideal.ofBits, Ideal.ieee, -EReal.coe_mul]; norm_num

/-- The pattern 0x3F800000 denotes the real number 1. -/
theorem ofBits_one : Ideal.ofBits .f32 0x3F800000#32 = ((1 : ℝ) : EReal) := by
  simp [Ideal.ofBits, Ideal.ieee, -EReal.coe_mul]; norm_num

/-- The pattern 0xFF800000 denotes −∞, the bottom of the extended reals. -/
theorem ofBits_neg_inf : Ideal.ofBits .f32 0xFF800000#32 = (⊥ : EReal) := by
  simp [Ideal.ofBits, Ideal.ieee]

/-- √64 = 8, since 8 · 8 = 64. -/
theorem sqrt_64 : Real.sqrt 64 = 8 := by
  rw [show (64 : ℝ) = 8 * 8 by norm_num]; exact Real.sqrt_mul_self (by norm_num)

/-- The scale 1 / √64 is the real number 1/8. -/
theorem scale_eq (i : S_.Idx) : val_main_v1 (F := Ideal) i = ((1 / 8 : ℝ) : EReal) := by
  rw [val_main_v1_apply, val_main_cst_0_apply, val_main_v0_apply, val_main_cst_apply]
  simp only [Ideal.hostDivf_def, Ideal.hostUnary_sqrt_def, Ideal.ofBits_def]
  rw [ofBits_64, ofBits_one, Ideal.sqrt_coe, if_neg (by norm_num), sqrt_64, Ideal.div_coe (by norm_num),
    ← EReal.coe_mul, one_mul]

/-! ## The logits -/

/-- The left operand of the first contraction at (b, q, k), feature e, is read at (b, q, e). -/
theorem lidx_v2 (b : Fin 4) (q k : Fin 4096) (e : Fin 64) : lidx_main_v2 (ix3 b q k) e = ix3 b q e :=
  funext fun a => Fin.ext (by match a with | ⟨0, _⟩ => rfl | ⟨1, _⟩ => rfl | ⟨2, _⟩ => rfl)

/-- The right operand of the first contraction at (b, q, k), feature e, is read at (b, k, e). -/
theorem ridx_v2 (b : Fin 4) (q k : Fin 4096) (e : Fin 64) : ridx_main_v2 (ix3 b q k) e = ix3 b k e :=
  funext fun a => Fin.ext (by match a with | ⟨0, _⟩ => rfl | ⟨1, _⟩ => rfl | ⟨2, _⟩ => rfl)

/-- The logit at (b, q, k) is the score of key row k against query row q. -/
theorem logits_eq (x : FVec Ideal S4x4096x64 .f32) (xr : Fin 4 → Fin 4096 → Fin 64 → ℝ)
    (hx : ∀ b q e, x (ix3 b q e) = (xr b q e : EReal)) (b : Fin 4) (q k : Fin 4096) :
    val_main_v4 (F := Ideal) x (ix3 b q k) = ((Cert.Attn.score xr b q k : ℝ) : EReal) := by
  rw [val_main_v4_apply, val_main_v2_apply, val_main_v3_apply, scale_eq]
  simp only [Ideal.mulf_def, lidx_v2, ridx_v2, hx]
  rw [Cert.Attn.score, EReal.coe_mul, Cert.AttnReal.coe_sum]
  simp only [EReal.coe_mul]

/-! ## The row maximum is a real number -/

/-- A maximum taken from −∞ over finitely many real numbers is −∞ or a real number. -/
theorem fold_max_real {ι : Type*} [DecidableEq ι] (s : Finset ι) (g : ι → ℝ) :
    s.fold max (⊥ : EReal) (fun k => (g k : EReal)) = ⊥
      ∨ ∃ μ : ℝ, s.fold max (⊥ : EReal) (fun k => (g k : EReal)) = (μ : EReal) := by
  induction s using Finset.induction_on with
  | empty => left; rw [Finset.fold_empty]
  | insert a s ha ih =>
    right
    rw [Finset.fold_insert ha]
    rcases ih with h | ⟨μ, h⟩
    · exact ⟨g a, by rw [h, max_bot_right]⟩
    · exact ⟨max (g a) μ, by rw [h]; exact (EReal.coe_strictMono.monotone.map_max).symm⟩

/-- Over a whole row of 4096 real numbers it is a real number: it is at least the first entry. -/
theorem fold_max_real_row (g : Fin 4096 → ℝ) :
    ∃ μ : ℝ, (Finset.univ : Finset (Fin 4096)).fold max (⊥ : EReal) (fun k => (g k : EReal)) = (μ : EReal) := by
  rcases fold_max_real Finset.univ g with h | h
  · exfalso
    have hle : ((g 0 : ℝ) : EReal) ≤ (Finset.univ : Finset (Fin 4096)).fold max (⊥ : EReal) (fun k => (g k : EReal)) :=
      (Finset.le_fold_max _).2 (Or.inr ⟨0, Finset.mem_univ _, le_rfl⟩)
    rw [h] at hle
    exact EReal.coe_ne_bot _ (le_bot_iff.1 hle)
  · exact h

/-- The reduced index (b, q) with the key coordinate k put back is (b, q, k). -/
theorem lift_v5 (h : S4x4096x4096.Reduces [2] S4x4096) (b : Fin 4) (q : Fin 4096) (k : Fin (S4x4096x4096.size 2)) :
    h.lift (ix2 b q) k = ix3 b q (⟨k.val, k.isLt⟩ : Fin 4096) := by
  funext c; apply Fin.ext
  fin_cases c <;> rfl

/-- The maximum over the keys of a row of logits, taken from −∞, is a real number. -/
theorem v5_real (x : FVec Ideal S4x4096x64 .f32) (xr : Fin 4 → Fin 4096 → Fin 64 → ℝ)
    (hx : ∀ b q e, x (ix3 b q e) = (xr b q e : EReal)) (b : Fin 4) (q : Fin 4096) :
    ∃ μ : ℝ, val_main_v5 (F := Ideal) x (ix2 b q) = (μ : EReal) := by
  have h : S4x4096x4096.Reduces [2] S4x4096 := by decide
  have hy : ∀ k : Fin 4096, val_main_v4 (F := Ideal) x (ix3 b q k) = ((Cert.Attn.score xr b q k : ℝ) : EReal) :=
    fun k => logits_eq x xr hx b q k
  unfold val_main_v5
  generalize val_main_v4 (F := Ideal) x = y at hy ⊢
  have e := Host.reduce_eq_fold_single (FloatOps.maximumf (F := Ideal) (φ := .f32)) y (val_main_cst_1 (F := Ideal))
    Gen.reducesTo_S4x4096x4096_S4x4096_d2 h Gen.h_S_ (ix2 b q)
  have hf : (y ∘ h.lift (ix2 b q)) = fun k : Fin 4096 => ((Cert.Attn.score xr b q k : ℝ) : EReal) :=
    funext fun k => (congrArg y (lift_v5 h b q k)).trans (hy _)
  have hi : val_main_cst_1 (F := Ideal) (Shape.Idx.first Gen.h_S_) = (⊥ : EReal) := by
    rw [val_main_cst_1_apply, Ideal.ofBits_def, ofBits_neg_inf]
  obtain ⟨μ, hμ⟩ := fold_max_real_row (fun k => Cert.Attn.score xr b q k)
  refine ⟨μ, e.trans ?_⟩
  rw [hi]
  refine Eq.trans ?_ hμ
  exact congrArg (fun f => Finset.fold max (⊥ : EReal) f (Finset.univ : Finset (Fin 4096))) hf

/-- The row maximum the softmax subtracts is a real number. -/
theorem rowmax_real (x : FVec Ideal S4x4096x64 .f32) (xr : Fin 4 → Fin 4096 → Fin 64 → ℝ)
    (hx : ∀ b q e, x (ix3 b q e) = (xr b q e : EReal)) (b : Fin 4) (q : Fin 4096) :
    ∃ μ : ℝ, val_main_v7 (F := Ideal) x (ix2 b q) = (μ : EReal) := by
  obtain ⟨μ, hμ⟩ := v5_real x xr hx b q
  refine ⟨μ, ?_⟩
  rw [val_main_v7_apply, val_main_v6_apply, val_main_cst_2_apply, hμ]
  simp only [Ideal.maximumf_def, Ideal.ofBits_def]
  rw [ofBits_neg_inf, max_bot_left]

/-! ## Exponentials, their total, the weights, and the weighted mean -/

/-- The row maximum broadcast along the keys is read, at (b, q, k), at (b, q). -/
theorem idx_v9_v8 (b : Fin 4) (q k : Fin 4096) : idx_main_v8 (idx_main_v9 (ix3 b q k)) = ix2 b q :=
  funext fun a => Fin.ext (by match a with | ⟨0, _⟩ => rfl | ⟨1, _⟩ => rfl)

/-- The shifted exponential at (b, q, k), for the real row maximum μ. -/
theorem exp_eq (x : FVec Ideal S4x4096x64 .f32) (xr : Fin 4 → Fin 4096 → Fin 64 → ℝ)
    (hx : ∀ b q e, x (ix3 b q e) = (xr b q e : EReal)) (b : Fin 4) (q k : Fin 4096) (μ : ℝ)
    (hμ : val_main_v7 (F := Ideal) x (ix2 b q) = (μ : EReal)) :
    val_main_v11 (F := Ideal) x (ix3 b q k) = ((Real.exp (Cert.Attn.score xr b q k - μ) : ℝ) : EReal) := by
  rw [val_main_v11_apply, val_main_v10_apply, val_main_v9_apply, val_main_v8_apply, idx_v9_v8, hμ,
    logits_eq x xr hx]
  simp only [Ideal.hostUnary_exp_def, Ideal.subf_def]
  rw [← EReal.coe_sub, Ideal.exp_coe]

/-- The k-th summand of the row total at (b, q) is the entry at (b, q, k). -/
theorem idx_v12 (b : Fin 4) (q k : Fin 4096) : idx_main_v12 (ix2 b q) k = ix3 b q k :=
  funext fun a => Fin.ext (by match a with | ⟨0, _⟩ => rfl | ⟨1, _⟩ => rfl | ⟨2, _⟩ => rfl)

/-- The softmax denominator of row (b, q): the total of the shifted exponentials. -/
theorem denom_eq (x : FVec Ideal S4x4096x64 .f32) (xr : Fin 4 → Fin 4096 → Fin 64 → ℝ)
    (hx : ∀ b q e, x (ix3 b q e) = (xr b q e : EReal)) (b : Fin 4) (q : Fin 4096) (μ : ℝ)
    (hμ : val_main_v7 (F := Ideal) x (ix2 b q) = (μ : EReal)) :
    val_main_v12 (F := Ideal) x (ix2 b q)
      = ((∑ k : Fin 4096, Real.exp (Cert.Attn.score xr b q k - μ) : ℝ) : EReal) := by
  rw [val_main_v12_apply, val_main_cst_3_apply]
  simp only [Ideal.ofBits_def, idx_v12, exp_eq x xr hx b q _ μ hμ]
  rw [Ideal.ofBits_zero_f32, zero_add, Cert.AttnReal.coe_sum]

/-- The row total broadcast along the keys is read, at (b, q, k), at (b, q). -/
theorem idx_v14_v13 (b : Fin 4) (q k : Fin 4096) : idx_main_v13 (idx_main_v14 (ix3 b q k)) = ix2 b q :=
  funext fun a => Fin.ext (by match a with | ⟨0, _⟩ => rfl | ⟨1, _⟩ => rfl)

/-- The softmax weight at (b, q, k): the shifted exponential over the row's total. -/
theorem weight_eq (x : FVec Ideal S4x4096x64 .f32) (xr : Fin 4 → Fin 4096 → Fin 64 → ℝ)
    (hx : ∀ b q e, x (ix3 b q e) = (xr b q e : EReal)) (b : Fin 4) (q k : Fin 4096) (μ : ℝ)
    (hμ : val_main_v7 (F := Ideal) x (ix2 b q) = (μ : EReal)) :
    val_main_v15 (F := Ideal) x (ix3 b q k)
      = ((Real.exp (Cert.Attn.score xr b q k - μ) / (∑ s : Fin 4096, Real.exp (Cert.Attn.score xr b q s - μ)) : ℝ) : EReal) := by
  rw [val_main_v15_apply, val_main_v14_apply, val_main_v13_apply, idx_v14_v13, denom_eq x xr hx b q μ hμ,
    exp_eq x xr hx b q k μ hμ]
  simp only [Ideal.hostDivf_def]
  rw [Ideal.div_coe (ne_of_gt (Cert.AttnReal.sum_exp_pos _)), ← EReal.coe_mul, mul_one_div]

/-- The left operand of the second contraction at (b, q, d), key k, is read at (b, q, k). -/
theorem lidx_v16 (b : Fin 4) (q k : Fin 4096) (d : Fin 64) : lidx_main_v16 (ix3 b q d) k = ix3 b q k :=
  funext fun a => Fin.ext (by match a with | ⟨0, _⟩ => rfl | ⟨1, _⟩ => rfl | ⟨2, _⟩ => rfl)

/-- The right operand of the second contraction at (b, q, d), key k, is read at (b, k, d). -/
theorem ridx_v16 (b : Fin 4) (q k : Fin 4096) (d : Fin 64) : ridx_main_v16 (ix3 b q d) k = ix3 b k d :=
  funext fun a => Fin.ext (by match a with | ⟨0, _⟩ => rfl | ⟨1, _⟩ => rfl | ⟨2, _⟩ => rfl)

/-- The reference's output at (b, q, d) is the exponentially weighted mean of the value rows: the sum of the
    normalised weights times the values is the weighted sum over the total, and the shift by μ cancels. -/
theorem ref_apply (x : FVec Ideal S4x4096x64 .f32) (xr : Fin 4 → Fin 4096 → Fin 64 → ℝ)
    (hx : ∀ b q e, x (ix3 b q e) = (xr b q e : EReal)) (b : Fin 4) (q : Fin 4096) (d : Fin 64) :
    val_main_v16 (F := Ideal) x (ix3 b q d) = ((Cert.Attn.attn xr b q d : ℝ) : EReal) := by
  obtain ⟨μ, hμ⟩ := rowmax_real x xr hx b q
  rw [val_main_v16_apply]
  simp only [lidx_v16, ridx_v16, weight_eq x xr hx b q _ μ hμ, hx, ← EReal.coe_mul]
  rw [← Cert.AttnReal.coe_sum]
  exact congrArg _ ((Cert.AttnReal.sum_div_mul _ _ _).trans
    (Cert.AttnReal.mean_shift (fun k => Cert.Attn.score xr b q k) (fun k => xr b k d) μ))

end Cert.ReferenceIdeal.AttnValue

end
-- ==== Proof.Finite.lean ====
/-
  Under the precondition every entry of the input is a real number.
-/
import proofs.«410597_j40441412059534_3_alg».proof.Pre_finite_inputs
import proofs.«410597_j40441412059534_3_alg».proof.Proof.Gen.Pre_finite_inputs
import Idealize.ShloMosaic.PureOps.Ideal
import Idealize.ShloMosaic.Lib.ReduceAll

noncomputable section

namespace Cert.Pre_finite_inputs.AttnValue

open Idealize.ShloMosaic Cert.Pre_finite_inputs

/-- The scalar shape has exactly one index. -/
instance : Subsingleton S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value max a (−a) is strictly below +∞ is a real number:
    at −∞ the absolute value is −(−∞) = +∞, at +∞ it is +∞, and neither is below +∞. -/
theorem real_of_abs_lt_top (a : EReal) (ha : Ideal.cmp .olt (max a (-a)) ⊤ = 1#1) :
    ∃ r : ℝ, a = (r : EReal) := by
  induction a using EReal.rec with
  | bot => simp [Ideal.cmp] at ha
  | coe r => exact ⟨r, rfl⟩
  | top => simp [Ideal.cmp] at ha

theorem real_of_pre (x : FVec Ideal S4x4096x64 .f32)
    (h : Cert.Pre_finite_inputs.fn (F := Ideal) x = fun _ => 1#1) (i : S4x4096x64.Idx) :
    ∃ r : ℝ, x i = (r : EReal) := by
  -- the predicate's one result word is 1
  have h0 := congrFun h (fun a => a.elim0)
  dsimp only [fn] at h0
  -- a conjunction over all three axes that is 1 is 1 at every entry
  have hi := Host.reduce_andi_all _ _ _ _ _ h0 i
  -- the entry's word is the comparison |x i| < +∞
  have hi' : Ideal.cmp .olt (max (x i) (-(x i))) (Ideal.ofBits .f32 0x7F800000#32) = 1#1 := hi
  rw [ofBits_inf] at hi'
  exact real_of_abs_lt_top (x i) hi'

end Cert.Pre_finite_inputs.AttnValue

end
-- ==== Proof.lean ====
/-
  The attention kernel against its reference: the claims assembled.

  Frames. The word-level kernel and its idealization are the same pipelined region; each runs to the end from any
  memory with zero counters and leaves the argument array as it was (the argument array is read through two windows
  that share its ownership, half each). The reference is a straight line of host operations; its frame is its run
  with the result forgotten.

  Equivalence over the extended reals. Under the precondition every entry of the input is a real number. Then the
  kernel's result array is, index by index, the mean of the value rows weighted by e^score, score = (q · k) / 8,
  with no shift of the scores; the reference's is the same mean computed with the scores shifted by the row maximum
  and each weight normalised before the weighted sum. The weighted mean does not depend on the shift, and
  normalising first or dividing last is the same over the reals; 1/√64 is 1/8 exactly.
-/
import proofs.«410597_j40441412059534_3_alg».proof.Defs
import proofs.«410597_j40441412059534_3_alg».proof.Proof.Gen.Kernel
import proofs.«410597_j40441412059534_3_alg».proof.Proof.Gen.KernelIdeal
import proofs.«410597_j40441412059534_3_alg».proof.Proof.Gen.ReferenceIdeal
import proofs.«410597_j40441412059534_3_alg».proof.Proof.Gen.Pre_finite_inputs
import proofs.«410597_j40441412059534_3_alg».proof.Proof.KernelFrame
import proofs.«410597_j40441412059534_3_alg».proof.Proof.KernelIdealFrame
import proofs.«410597_j40441412059534_3_alg».proof.Proof.KernelValue
import proofs.«410597_j40441412059534_3_alg».proof.Proof.RefValue
import proofs.«410597_j40441412059534_3_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.AttnFrame.frame m ρ

theorem frame_ki : Cert.frame_KernelIdeal := fun m ρ _ => Cert.KernelIdeal.AttnFrame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's function of the (real) input. -/
theorem algebraic : Cert.algebraic_KernelIdeal_ReferenceIdeal := by
  intro m ρ m' ρ' hpre hagree
  have hfin : ∀ (c : Dev Cert.KernelIdeal.nD) (i : Cert.KernelIdeal.S4x4096x64.Idx),
      ∃ r : ℝ, m ((c.tc : Thread Cert.KernelIdeal.nD Cert.KernelIdeal.τ).loc Cert.KernelIdeal.main_arg0) i = (r : EReal) :=
    fun c i => Cert.Pre_finite_inputs.AttnValue.real_of_pre _ (hpre c) i
  choose xr0 hxr0 using hfin
  refine ⟨fun c => Cert.KernelIdeal.AttnRun.G (fun b q e => xr0 c (ix3 b q e)),
    Cert.KernelIdeal.AttnRun.run m ρ (fun c b q e => xr0 c (ix3 b q e)) (fun c b q e => hxr0 c _), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, hagree c]
  funext i
  obtain ⟨b, q, d, rfl⟩ : ∃ (b : Fin 4) (q : Fin 4096) (d : Fin 64), i = ix3 b q d := ⟨i 0, i 1, i 2, eq_ix3 i⟩
  exact Cert.ReferenceIdeal.AttnValue.ref_apply _ (fun b q e => xr0 c (ix3 b q e)) (fun b q e => hxr0 c _) b q d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
